-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x768 : Shape := ⟨3, ![256, 64, 768]⟩
abbrev S256x64x384 : Shape := ⟨3, ![256, 64, 384]⟩
abbrev S_ : Shape := ⟨0, ![]⟩

class Facts : Prop where
  bcast_S_S256x64x768 : S_.BroadcastsInDim S256x64x768 (![] : Fin 0 → Fin S256x64x768.rank)
  reducesTo_S256x64x768_S_d0_1_2 : S256x64x768.ReducesTo [0, 1, 2] S_
  h_S_ : 0 < S_.numel
  bcast_S_S256x64x384 : S_.BroadcastsInDim S256x64x384 (![] : Fin 0 → Fin S256x64x384.rank)
  reducesTo_S256x64x384_S_d0_1_2 : S256x64x384.ReducesTo [0, 1, 2] S_

variable [Facts]

def fn {F : FTy → Type} [FloatOps F] (main_arg0 : FVec F S256x64x768 .f32) (main_arg1 : FVec F S256x64x768 .f32) (main_arg2 : FVec F S256x64x384 .f32) : IVec S_ 1 :=
  let main_v0 : FVec F S256x64x768 .f32 := Host.absf main_arg0
  let main_cst : FVec F S_ .f32 := constant S_ .f32 0x7F800000#32
  let main_v1 : FVec F S256x64x768 .f32 := broadcastInDim S256x64x768 ![] bcast_S_S256x64x768 main_cst
  let main_v2 : IVec S256x64x768 1 := cmpf .olt main_v0 main_v1
  let main_c : IVec S_ 1 := constantI S_ 1 1#1
  let main_v3 : IVec S_ 1 := (fun x v => Host.reduce IntOp.andi x v reducesTo_S256x64x768_S_d0_1_2 h_S_) main_v2 main_c
  let main_v4 : FVec F S256x64x768 .f32 := Host.absf main_arg1
  let main_cst_0 : FVec F S_ .f32 := constant S_ .f32 0x7F800000#32
  let main_v5 : FVec F S256x64x768 .f32 := broadcastInDim S256x64x768 ![] bcast_S_S256x64x768 main_cst_0
  let main_v6 : IVec S256x64x768 1 := cmpf .olt main_v4 main_v5
  let main_c_1 : IVec S_ 1 := constantI S_ 1 1#1
  let main_v7 : IVec S_ 1 := (fun x v => Host.reduce IntOp.andi x v reducesTo_S256x64x768_S_d0_1_2 h_S_) main_v6 main_c_1
  let main_v8 : IVec S_ 1 := andi main_v3 main_v7
  let main_v9 : FVec F S256x64x384 .f32 := Host.absf main_arg2
  let main_cst_2 : FVec F S_ .f32 := constant S_ .f32 0x7F800000#32
  let main_v10 : FVec F S256x64x384 .f32 := broadcastInDim S256x64x384 ![] bcast_S_S256x64x384 main_cst_2
  let main_v11 : IVec S256x64x384 1 := cmpf .olt main_v9 main_v10
  let main_c_3 : IVec S_ 1 := constantI S_ 1 1#1
  let main_v12 : IVec S_ 1 := (fun x v => Host.reduce IntOp.andi x v reducesTo_S256x64x384_S_d0_1_2 h_S_) main_v11 main_c_3
  let main_v13 : IVec S_ 1 := andi main_v8 main_v12
  main_v13
-- ==== Kernel.lean ====
abbrev S256x64x768 : Shape := ⟨3, ![256, 64, 768]⟩
abbrev S256x64x384 : Shape := ⟨3, ![256, 64, 384]⟩
abbrev S1x3 : Shape := ⟨2, ![1, 3]⟩
abbrev S16x64x768 : Shape := ⟨3, ![16, 64, 768]⟩
abbrev S16x64x384 : Shape := ⟨3, ![16, 64, 384]⟩
abbrev S1x1 : Shape := ⟨2, ![1, 1]⟩
abbrev S16x64 : Shape := ⟨2, ![16, 64]⟩
abbrev S16 : Shape := ⟨1, ![16]⟩
abbrev S16x1 : Shape := ⟨2, ![16, 1]⟩
abbrev S1 : Shape := ⟨1, ![1]⟩
abbrev S16x64x1 : Shape := ⟨3, ![16, 64, 1]⟩
abbrev S16x384 : Shape := ⟨2, ![16, 384]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S256x64x768, .f32⟩
  | .hbm, ⟨1, _⟩ => ⟨S256x64x768, .f32⟩
  | .hbm, ⟨2, _⟩ => ⟨S256x64x384, .f32⟩
  | .hbm, ⟨3, _⟩ => ⟨S1x3, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .local _ .vmem, ⟨0, _⟩ => ⟨S16x64x768, .f32⟩
  | .local _ .vmem, ⟨1, _⟩ => ⟨S16x64x768, .f32⟩
  | .local _ .vmem, ⟨2, _⟩ => ⟨S16x64x768, .f32⟩
  | .local _ .vmem, ⟨3, _⟩ => ⟨S16x64x768, .f32⟩
  | .local _ .vmem, ⟨4, _⟩ => ⟨S16x64x384, .f32⟩
  | .local _ .vmem, ⟨5, _⟩ => ⟨S16x64x384, .f32⟩
  | .local _ .vmem, ⟨6, _⟩ => ⟨S1x3, .f32⟩
  | .local _ .vmem, ⟨7, _⟩ => ⟨S1x1, .f32⟩
  | .local _ .vmem, ⟨8, _⟩ => ⟨S1x1, .f32⟩
  | _, _ => ⟨S256x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_23 : BitVec 32 := 0#32
  let v38 : BitVec 1 := Scalar.cmpi .ne v37 c0_i32_23
  v38

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x64x768_S16x64x768_0_0_0 : ∀ a, (![0, 0, 0] : Fin 3 → Nat) a + S16x64x768.size a ≤ S16x64x768.size a
  h_S16x64x768 : 0 < S16x64x768.numel
  reduces_S16x64x768_S16x64 : S16x64x768.Reduces [2] S16x64
  reduces_S16x64_S16 : S16x64.Reduces [1] S16
  shapeCasts_S16_S16x1 : S16.ShapeCasts S16x1
  reduces_S16x1_S1 : S16x1.Reduces [0] S1
  shapeCasts_S1_S1x1 : S1.ShapeCasts S1x1
  inb_S16x64x384_S16x64x384_0_0_0 : ∀ a, (![0, 0, 0] : Fin 3 → Nat) a + S16x64x384.size a ≤ S16x64x384.size a
  h_S16x64x384 : 0 < S16x64x384.numel
  reduces_S16x64x384_S16x64 : S16x64x384.Reduces [2] S16x64
  shapeCasts_S16x64_S16x64x1 : S16x64.ShapeCasts S16x64x1
  broadcasts_S16x64x1_S16x64x384 : S16x64x1.Broadcasts S16x64x384
  reduces_S16x64x384_S16x384 : S16x64x384.Reduces [1] S16x384
  reduces_S16x384_S16 : S16x384.Reduces [1] S16
  concatenates_S1x1_S1x1_S1x1_S1x3_d1 : Shape.Concatenates [S1x1, S1x1, S1x1] S1x3 1
  inb_S1x3_S1x3_0_0 : ∀ a, (![0, 0] : Fin 2 → Nat) a + S1x3.size a ≤ S1x3.size a
  h_S1x3 : 0 < S1x3.numel
  slices_S1x3_S1x1_0_0 : S1x3.Slices ![0, 0] S1x1
  shapeCasts_S1x1_S_ : S1x1.ShapeCasts S_
  slices_S1x3_S1x1_0_1 : S1x3.Slices ![0, 1] S1x1
  slices_S1x3_S1x1_0_2 : S1x3.Slices ![0, 2] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x768.size a ≤ S256x64x768.size a
  hwx0_0 : ∀ i : grid0.Coords, EltTy.bits .f32 = 32 ∨ (Rect.block (s := S256x64x768) S16x64x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x768.size a ≤ S256x64x768.size a
  hwx0_1 : ∀ i : grid0.Coords, EltTy.bits .f32 = 32 ∨ (Rect.block (s := S256x64x768) S16x64x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x384.size a ≤ S256x64x384.size a
  hwx0_2 : ∀ i : grid0.Coords, EltTy.bits .f32 = 32 ∨ (Rect.block (s := S256x64x384) S16x64x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)

variable [Facts₀]

abbrev win0_0 : Pipeline.Window sig grid0 :=
  Pipeline.Window.ofSpec (Memref.whole main_arg0) S16x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x3.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x64x768 : Shape := ⟨3, ![256, 64, 768]⟩
abbrev S256x64x384 : Shape := ⟨3, ![256, 64, 384]⟩
abbrev S_ : Shape := ⟨0, ![]⟩
abbrev S256x64 : Shape := ⟨2, ![256, 64]⟩
abbrev S256x64x1 : Shape := ⟨3, ![256, 64, 1]⟩
abbrev S256x384 : Shape := ⟨2, ![256, 384]⟩

abbrev nBuf : Space → Nat
  | .hbm => 31
  | .vmem => 0
  | .smem => 0
  | _ => 0

abbrev bufTy : (tb : Table) → Fin (tcTables nBuf tb) → BufTy
  | .hbm, ⟨0, _⟩ => ⟨S256x64x768, .f32⟩
  | .hbm, ⟨1, _⟩ => ⟨S256x64x768, .f32⟩
  | .hbm, ⟨2, _⟩ => ⟨S256x64x384, .f32⟩
  | .hbm, ⟨3, _⟩ => ⟨S256x64x768, .f32⟩
  | .hbm, ⟨4, _⟩ => ⟨S256x64x768, .f32⟩
  | .hbm, ⟨5, _⟩ => ⟨S_, .f32⟩
  | .hbm, ⟨6, _⟩ => ⟨S256x64, .f32⟩
  | .hbm, ⟨7, _⟩ => ⟨S256x64, .f32⟩
  | .hbm, ⟨8, _⟩ => ⟨S_, .f32⟩
  | .hbm, ⟨9, _⟩ => ⟨S_, .f32⟩
  | .hbm, ⟨10, _⟩ => ⟨S256x64x384, .f32⟩
  | .hbm, ⟨11, _⟩ => ⟨S_, .f32⟩
  | .hbm, ⟨12, _⟩ => ⟨S256x64, .f32⟩
  | .hbm, ⟨13, _⟩ => ⟨S256x64x1, .f32⟩
  | .hbm, ⟨14, _⟩ => ⟨S256x64x1, .f32⟩
  | .hbm, ⟨15, _⟩ => ⟨S256x64x384, .f32⟩
  | .hbm, ⟨16, _⟩ => ⟨S256x64x384, .f32⟩
  | .hbm, ⟨17, _⟩ => ⟨S_, .f32⟩
  | .hbm, ⟨18, _⟩ => ⟨S256x384, .f32⟩
  | .hbm, ⟨19, _⟩ => ⟨S256x384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S256x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  reducesTo_S256x64x768_S256x64_d2 : S256x64x768.ReducesTo [2] S256x64
  h_S_ : 0 < S_.numel
  reducesTo_S256x64_S_d0_1 : S256x64.ReducesTo [0, 1] S_
  reducesTo_S256x64x384_S256x64_d2 : S256x64x384.ReducesTo [2] S256x64
  bcast_S256x64_S256x64x1_0_1 : S256x64.BroadcastsInDim S256x64x1 (![0, 1] : Fin 2 → Fin S256x64x1.rank)
  bcast_S256x64x1_S256x64x384_0_1_2 : S256x64x1.BroadcastsInDim S256x64x384 (![0, 1, 2] : Fin 3 → Fin S256x64x384.rank)
  reducesTo_S256x64x384_S256x384_d1 : S256x64x384.ReducesTo [1] S256x384
  reducesTo_S256x384_S_d0_1 : S256x384.ReducesTo [0, 1] S_

variable [Facts₀]

class Facts : Prop extends Facts₀ where

variable [Facts]
-- ==== Proof.LossSpec.lean ====
/-
  The three results as functions of the three argument arrays, over the extended reals.

  For images x, y of shape [256, 64, 768] and encodings z of shape [256, 64, 384]:
    rowLen b n   = sqrt (sum over d of (x[b,n,d] - y[b,n,d])^2)             the length of a row of the difference
    lenTotal     = sum over b, n of rowLen b n
    colSum b e   = sum over n of z[b,n,e] / sqrt (sum over e' of z[b,n,e']^2)   a column of the unit-length rows
    sqTotal      = sum over b, e of (colSum b e)^2
    lossAuto     = lenTotal / 16384
    lossVi       = (1/2 * (sqTotal - 16384)) / 532480
    loss         = lossAuto - lossVi
  The square root, the quotient and the three constants are kept as the ideal instance's own functions and words:
  both programs use the same ones, so they are never opened.

  The one law: addition on the extended reals is commutative and associative, so a sum over the 256 batch rows is
  the sum over 16 tiles of the sums over a tile's 16 rows (row 16 t + p is place p of tile t), and a sum built up
  tile by tile from zero is the sum over the tiles. No finiteness is needed.
-/
import Idealize.ShloMosaic.PureOps.Ideal
import Idealize.ShloMosaic.Lib.ValueIdx
import Mathlib.Algebra.BigOperators.Fin
import Mathlib.Logic.Equiv.Fin.Basic

noncomputable section

open scoped BigOperators

namespace Cert.LossSpec

open Idealize.ShloMosaic Idealize.ShloMosaic.ValueIdx

/-! ## Rows by tiles -/

/-- Batch row `16 t + p`: place `p` of tile `t`. -/
abbrev row (t p : Fin 16) : Fin 256 := ⟨16 * t.val + p.val, by have := t.isLt; have := p.isLt; omega⟩

/-- A sum over the 256 batch rows, tile by tile. -/
theorem sum_rows {M : Type*} [AddCommMonoid M] (f : Fin 256 → M) :
    ∑ b : Fin 256, f b = ∑ t : Fin 16, ∑ p : Fin 16, f (row t p) := by
  have e : ∑ u : Fin 16 × Fin 16, f (finProdFinEquiv u) = ∑ b : Fin 256, f b :=
    Equiv.sum_comp (finProdFinEquiv (m := 16) (n := 16)) f
  rw [← e, Fintype.sum_prod_type]
  refine Finset.sum_congr rfl fun t _ => Finset.sum_congr rfl fun p _ => congrArg f (Fin.ext ?_)
  show p.val + 16 * t.val = 16 * t.val + p.val
  omega

/-- A sum built up from zero, one term per step: after step `n` it holds `0 + g 0 + … + g n`. -/
def upTo (g : ℕ → EReal) : ℕ → EReal
  | 0 => 0 + g 0
  | n + 1 => upTo g n + g (n + 1)

theorem upTo_eq_sum (g : ℕ → EReal) (n : ℕ) : upTo g n = ∑ t ∈ Finset.range (n + 1), g t := by
  induction n with
  | zero => simp [upTo]
  | succ n ih => rw [Finset.sum_range_succ g (n + 1), upTo, ih]

/-- After the sixteenth step it is the sum over the sixteen tiles. -/
theorem upTo_fifteen (f : Fin 16 → EReal) (g : ℕ → EReal) (hg : ∀ t : Fin 16, g t.val = f t) :
    upTo g 15 = ∑ t : Fin 16, f t := by
  rw [upTo_eq_sum, ← Fin.sum_univ_eq_sum_range g 16]
  exact Finset.sum_congr rfl fun t _ => hg t

/-! ## The losses -/

section
variable (x y : (⟨3, ![256, 64, 768]⟩ : Shape).Idx → EReal) (z : (⟨3, ![256, 64, 384]⟩ : Shape).Idx → EReal)

/-- The length of row (b, n) of the difference of the two images. -/
def rowLen (b : Fin 256) (n : Fin 64) : EReal :=
  Ideal.sqrt (∑ d : Fin 768, (x (ix3 b n d) - y (ix3 b n d)) * (x (ix3 b n d) - y (ix3 b n d)))

/-- The length of row (b, n) of the encodings. -/
def rowScale (b : Fin 256) (n : Fin 64) : EReal :=
  Ideal.sqrt (∑ e : Fin 384, z (ix3 b n e) * z (ix3 b n e))

/-- Column e of batch b's rows, each divided by its length, summed over the rows. -/
def colSum (b : Fin 256) (e : Fin 384) : EReal :=
  ∑ n : Fin 64, Ideal.div (z (ix3 b n e)) (rowScale z b n)

def lenTotal : EReal := ∑ b : Fin 256, ∑ n : Fin 64, rowLen x y b n

def sqTotal : EReal := ∑ b : Fin 256, ∑ e : Fin 384, colSum z b e * colSum z b e

/-- Tile t's share of `lenTotal`. -/
def lenTile (t : Fin 16) : EReal := ∑ p : Fin 16, ∑ n : Fin 64, rowLen x y (row t p) n

/-- Tile t's share of `sqTotal`. -/
def sqTile (t : Fin 16) : EReal := ∑ p : Fin 16, ∑ e : Fin 384, colSum z (row t p) e * colSum z (row t p) e

theorem lenTotal_tiles : lenTotal x y = ∑ t : Fin 16, lenTile x y t := sum_rows _

theorem sqTotal_tiles : sqTotal z = ∑ t : Fin 16, sqTile z t := sum_rows _

def lossAuto : EReal := Ideal.div (lenTotal x y) (Ideal.ofBits .f32 0x46800000#32)

def lossVi : EReal :=
  Ideal.div (Ideal.ofBits .f32 0x3F000000#32 * (sqTotal z - Ideal.ofBits .f32 0x46800000#32)) (Ideal.ofBits .f32 0x49020000#32)

def loss : EReal := lossAuto x y - lossVi z

end

end Cert.LossSpec

end
-- ==== Proof.RefSide.lean ====
/-
  The reference program at the ideal instance computes the three losses of the specification.

  Read operation by operation: the row lengths of the difference (a sum over the last axis, a square root), their
  total over all (batch, row) pairs; the row lengths of the encodings, kept with a last axis of extent one and spread
  back along it, the quotient, the column sums over the rows, their squares, the total over all (batch, column)
  pairs; then the scalar arithmetic. Each of the reference's sums starts from a zero constant, which adds nothing.
-/
import proofs.«170459_j23476291240772_1_alg».proof.Defs
import proofs.«170459_j23476291240772_1_alg».proof.Proof.Gen.ReferenceIdeal.Run
import proofs.«170459_j23476291240772_1_alg».proof.Proof.Gen.ReferenceIdeal.Read
import proofs.«170459_j23476291240772_1_alg».proof.Proof.LossSpec
import Idealize.ShloMosaic.Lib.ValueIdx
import Idealize.ShloMosaic.PureOps.Ideal.Laws

noncomputable section

open scoped BigOperators

namespace Cert.LossRef

open Idealize.ShloMosaic Idealize.ShloMosaic.ValueIdx Cert.ReferenceIdeal Cert.ReferenceIdeal.Read Cert.LossSpec

/-! ## The reference's index functions are the coordinate constructors -/

theorem idx_v2 (b : Fin 256) (n : Fin 64) (d : Fin 768) : idx_main_v2 (ix2 b n) d = ix3 b n d :=
  funext fun a => by match a with | ⟨0, _⟩ => rfl | ⟨1, _⟩ => rfl | ⟨2, _⟩ => rfl

theorem idx_c1 (b : Fin 256) (n : Fin 64) (e : Fin 384) : idx_main_call0_v1 (ix2 b n) e = ix3 b n e :=
  funext fun a => by match a with | ⟨0, _⟩ => rfl | ⟨1, _⟩ => rfl | ⟨2, _⟩ => rfl

theorem idx_c2 (b : Fin 256) (n : Fin 64) : idx_main_call0_v2 (ix3 b n (0 : Fin 1)) = ix2 b n :=
  funext fun a => by match a with | ⟨0, _⟩ => rfl | ⟨1, _⟩ => rfl

theorem idx_v6 (b : Fin 256) (n : Fin 64) (e : Fin 384) : idx_main_v6 (ix3 b n e) = ix3 b n (0 : Fin 1) :=
  funext fun a => by match a with | ⟨0, _⟩ => rfl | ⟨1, _⟩ => rfl | ⟨2, _⟩ => rfl

theorem idx_v8 (b : Fin 256) (e : Fin 384) (n : Fin 64) : idx_main_v8 (ix2 b e) n = ix3 b n e :=
  funext fun a => by match a with | ⟨0, _⟩ => rfl | ⟨1, _⟩ => rfl | ⟨2, _⟩ => rfl

/-! ## The stages -/

section
variable (x0 x1 : (⟨S256x64x768, .f32⟩ : BufTy).Contents (Elt Ideal)) (x2 : (⟨S256x64x384, .f32⟩ : BufTy).Contents (Elt Ideal))

theorem rowLen_eq (b : Fin 256) (n : Fin 64) : val_main_v3 (F := Ideal) x0 x1 (ix2 b n) = rowLen x0 x1 b n := by
  rw [val_main_v3_apply, val_main_v2_apply]
  simp only [Ideal.hostUnary_sqrt_def, val_main_cst_apply, Ideal.ofBits_def, Ideal.ofBits_zero_f32, zero_add,
    val_main_v1_apply, val_main_v0_apply, Ideal.mulf_def, Ideal.subf_def, idx_v2]
  rfl

theorem lenTotal_eq (i : S_.Idx) : val_main_v4 (F := Ideal) x0 x1 i = lenTotal x0 x1 := by
  rw [val_main_v4_apply, sum_idx2]
  simp only [val_main_cst_0_apply, Ideal.ofBits_def, Ideal.ofBits_zero_f32, zero_add, rowLen_eq]
  rfl

theorem rowScale_eq (b : Fin 256) (n : Fin 64) :
    val_main_v5 (F := Ideal) x2 (ix3 b n (0 : Fin 1)) = rowScale x2 b n := by
  rw [val_main_v5_apply, val_main_call0_v2_apply, idx_c2, val_main_call0_v1_apply]
  simp only [Ideal.hostUnary_sqrt_def, val_main_call0_cst_apply, Ideal.ofBits_def, Ideal.ofBits_zero_f32, zero_add,
    val_main_call0_v0_apply, Ideal.mulf_def, idx_c1]
  rfl

theorem colSum_eq (b : Fin 256) (e : Fin 384) : val_main_v8 (F := Ideal) x2 (ix2 b e) = colSum x2 b e := by
  rw [val_main_v8_apply]
  simp only [val_main_cst_1_apply, Ideal.ofBits_def, Ideal.ofBits_zero_f32, zero_add, idx_v8, val_main_v7_apply,
    val_main_v6_apply, idx_v6, rowScale_eq, Ideal.hostDivf_def]
  rfl

theorem sqTotal_eq (i : S_.Idx) : val_main_v10 (F := Ideal) x2 i = sqTotal x2 := by
  rw [val_main_v10_apply, sum_idx2]
  simp only [val_main_cst_2_apply, Ideal.ofBits_def, Ideal.ofBits_zero_f32, zero_add, val_main_v9_apply,
    Ideal.mulf_def, colSum_eq]
  rfl

/-! ## The three results -/

theorem lossAuto_eq (i : S_.Idx) : val_main_v13 (F := Ideal) x0 x1 i = lossAuto x0 x1 := by
  rw [val_main_v13_apply, lenTotal_eq]
  rfl

theorem lossVi_eq (i : S_.Idx) : val_main_v14 (F := Ideal) x2 i = lossVi x2 := by
  rw [val_main_v14_apply, val_main_v12_apply, val_main_v11_apply, sqTotal_eq]
  rfl

theorem loss_eq (i : S_.Idx) : val_main_v15 (F := Ideal) x0 x1 x2 i = loss x0 x1 x2 := by
  rw [val_main_v15_apply, lossAuto_eq, lossVi_eq]
  rfl

end

end Cert.LossRef

end
-- ==== Proof.Payload.lean ====
/-
  What one grid point's body computes from its three blocks, at the ideal instance.

  A block of the two images is [16, 64, 768], a block of the encodings [16, 64, 384]. The body adds to the first
  accumulator the sum, over the block's 16 x 64 rows, of the length of the difference of the two image rows, and to the
  second the sum, over the block's 16 x 384 (batch, column) pairs, of the squared column sum of the unit-length
  encoding rows. Each accumulator is a [1, 1] vector. At the last point the body turns the two accumulators into the
  row of three results.

  Every reduction is a plain finite sum over one axis at the ideal instance; the shape casts and the broadcast only
  add or drop axes of extent one, so each is read at an index by comparing row-major positions.
-/
import proofs.«170459_j23476291240772_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LossKernel

open Idealize.ShloMosaic Idealize.ShloMosaic.ValueIdx Cert.KernelIdeal Cert.KernelIdeal.Gen

/-- The one index of a [1, 1] vector. -/
abbrev o11 : S1x1.Idx := ix2 (0 : Fin 1) (0 : Fin 1)

theorem eq_o11 (j : S1x1.Idx) : j = o11 := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-! ## The elementwise square root at an index -/

theorem sqrt_apply {s : Shape} (w : FVec Ideal s .f32) (i : s.Idx) : sqrt w i = Ideal.sqrt (w i) := rfl

/-! ## The six reductions, each over one axis -/

theorem sum_last_768 (w : FVec Ideal S16x64x768 .f32) (hφ : FKind.Formats .f32)
    (hacc : (0x00000000#32 : BitVec 32) = 0x00000000#32) (p : Fin 16) (n : Fin 64) :
    multiReduction .add [2] S16x64 w 0x00000000#32 reduces_S16x64x768_S16x64 hφ hacc (ix2 p n)
      = ∑ d : Fin 768, w (ix3 p n d) :=
  (Ideal.multiReduction_add_single w 0x00000000#32 reduces_S16x64x768_S16x64 hφ hacc (ix2 p n)).trans
    (Finset.sum_congr rfl fun d _ => congrArg w (funext fun a => Fin.ext (by
      match a with | ⟨0, _⟩ => rfl | ⟨1, _⟩ => rfl | ⟨2, _⟩ => rfl)))

theorem sum_last_384 (w : FVec Ideal S16x64x384 .f32) (hφ : FKind.Formats .f32)
    (hacc : (0x00000000#32 : BitVec 32) = 0x00000000#32) (p : Fin 16) (n : Fin 64) :
    multiReduction .add [2] S16x64 w 0x00000000#32 reduces_S16x64x384_S16x64 hφ hacc (ix2 p n)
      = ∑ e : Fin 384, w (ix3 p n e) :=
  (Ideal.multiReduction_add_single w 0x00000000#32 reduces_S16x64x384_S16x64 hφ hacc (ix2 p n)).trans
    (Finset.sum_congr rfl fun e _ => congrArg w (funext fun a => Fin.ext (by
      match a with | ⟨0, _⟩ => rfl | ⟨1, _⟩ => rfl | ⟨2, _⟩ => rfl)))

theorem sum_rows_64 (w : FVec Ideal S16x64 .f32) (hφ : FKind.Formats .f32)
    (hacc : (0x00000000#32 : BitVec 32) = 0x00000000#32) (p : Fin 16) :
    multiReduction .add [1] S16 w 0x00000000#32 reduces_S16x64_S16 hφ hacc (ix1 p)
      = ∑ n : Fin 64, w (ix2 p n) :=
  (Ideal.multiReduction_add_single w 0x00000000#32 reduces_S16x64_S16 hφ hacc (ix1 p)).trans
    (Finset.sum_congr rfl fun n _ => congrArg w (funext fun a => Fin.ext (by
      match a with | ⟨0, _⟩ => rfl | ⟨1, _⟩ => rfl)))

theorem sum_mid_64 (w : FVec Ideal S16x64x384 .f32) (hφ : FKind.Formats .f32)
    (hacc : (0x00000000#32 : BitVec 32) = 0x00000000#32) (p : Fin 16) (e : Fin 384) :
    multiReduction .add [1] S16x384 w 0x00000000#32 reduces_S16x64x384_S16x384 hφ hacc (ix2 p e)
      = ∑ n : Fin 64, w (ix3 p n e) :=
  (Ideal.multiReduction_add_single w 0x00000000#32 reduces_S16x64x384_S16x384 hφ hacc (ix2 p e)).trans
    (Finset.sum_congr rfl fun n _ => congrArg w (funext fun a => Fin.ext (by
      match a with | ⟨0, _⟩ => rfl | ⟨1, _⟩ => rfl | ⟨2, _⟩ => rfl)))

theorem sum_cols_384 (w : FVec Ideal S16x384 .f32) (hφ : FKind.Formats .f32)
    (hacc : (0x00000000#32 : BitVec 32) = 0x00000000#32) (p : Fin 16) :
    multiReduction .add [1] S16 w 0x00000000#32 reduces_S16x384_S16 hφ hacc (ix1 p)
      = ∑ e : Fin 384, w (ix2 p e) :=
  (Ideal.multiReduction_add_single w 0x00000000#32 reduces_S16x384_S16 hφ hacc (ix1 p)).trans
    (Finset.sum_congr rfl fun e _ => congrArg w (funext fun a => Fin.ext (by
      match a with | ⟨0, _⟩ => rfl | ⟨1, _⟩ => rfl)))

theorem sum_batch_16 (w : FVec Ideal S16x1 .f32) (hφ : FKind.Formats .f32)
    (hacc : (0x00000000#32 : BitVec 32) = 0x00000000#32) :
    multiReduction .add [0] S1 w 0x00000000#32 reduces_S16x1_S1 hφ hacc (ix1 (0 : Fin 1))
      = ∑ p : Fin 16, w (ix2 p (0 : Fin 1)) :=
  (Ideal.multiReduction_add_single w 0x00000000#32 reduces_S16x1_S1 hφ hacc (ix1 (0 : Fin 1))).trans
    (Finset.sum_congr rfl fun p _ => congrArg w (funext fun a => Fin.ext (by
      match a with | ⟨0, _⟩ => rfl | ⟨1, _⟩ => rfl)))

/-! ## The reductions named, so that a payload is a composition of named stages -/

/-- Sum over the last axis of a [16, 64, 768] block. -/
def sumLast768 (w : FVec Ideal S16x64x768 .f32) : FVec Ideal S16x64 .f32 :=
  multiReduction .add [2] S16x64 w 0x00000000#32 reduces_S16x64x768_S16x64 (.inl rfl) rfl
/-- Sum over the last axis of a [16, 64, 384] block. -/
def sumLast384 (w : FVec Ideal S16x64x384 .f32) : FVec Ideal S16x64 .f32 :=
  multiReduction .add [2] S16x64 w 0x00000000#32 reduces_S16x64x384_S16x64 (.inl rfl) rfl
/-- Sum over the 64 rows of a [16, 64] vector. -/
def sumRows64 (w : FVec Ideal S16x64 .f32) : FVec Ideal S16 .f32 :=
  multiReduction .add [1] S16 w 0x00000000#32 reduces_S16x64_S16 (.inl rfl) rfl
/-- Sum over the 64 rows of a [16, 64, 384] block, column by column. -/
def sumMid64 (w : FVec Ideal S16x64x384 .f32) : FVec Ideal S16x384 .f32 :=
  multiReduction .add [1] S16x384 w 0x00000000#32 reduces_S16x64x384_S16x384 (.inl rfl) rfl
/-- Sum over the 384 columns of a [16, 384] vector. -/
def sumCols384 (w : FVec Ideal S16x384 .f32) : FVec Ideal S16 .f32 :=
  multiReduction .add [1] S16 w 0x00000000#32 reduces_S16x384_S16 (.inl rfl) rfl
/-- Sum over the 16 batch places of a [16, 1] vector. -/
def sumBatch16 (w : FVec Ideal S16x1 .f32) : FVec Ideal S1 .f32 :=
  multiReduction .add [0] S1 w 0x00000000#32 reduces_S16x1_S1 (.inl rfl) rfl

theorem sumLast768_apply (w : FVec Ideal S16x64x768 .f32) (p : Fin 16) (n : Fin 64) :
    sumLast768 w (ix2 p n) = ∑ d : Fin 768, w (ix3 p n d) := sum_last_768 w _ rfl p n
theorem sumLast384_apply (w : FVec Ideal S16x64x384 .f32) (p : Fin 16) (n : Fin 64) :
    sumLast384 w (ix2 p n) = ∑ e : Fin 384, w (ix3 p n e) := sum_last_384 w _ rfl p n
theorem sumRows64_apply (w : FVec Ideal S16x64 .f32) (p : Fin 16) :
    sumRows64 w (ix1 p) = ∑ n : Fin 64, w (ix2 p n) := sum_rows_64 w _ rfl p
theorem sumMid64_apply (w : FVec Ideal S16x64x384 .f32) (p : Fin 16) (e : Fin 384) :
    sumMid64 w (ix2 p e) = ∑ n : Fin 64, w (ix3 p n e) := sum_mid_64 w _ rfl p e
theorem sumCols384_apply (w : FVec Ideal S16x384 .f32) (p : Fin 16) :
    sumCols384 w (ix1 p) = ∑ e : Fin 384, w (ix2 p e) := sum_cols_384 w _ rfl p
theorem sumBatch16_apply (w : FVec Ideal S16x1 .f32) :
    sumBatch16 w (ix1 (0 : Fin 1)) = ∑ p : Fin 16, w (ix2 p (0 : Fin 1)) := sum_batch_16 w _ rfl

/-! ## The casts and the broadcast: axes of extent one added -/

/-- [16] viewed as [16, 1]. -/
theorem col_of_vec {α : Type} (w : S16.Idx → α) (p : Fin 16) :
    shapeCast S16x1 w shapeCasts_S16_S16x1 (ix2 p (0 : Fin 1)) = w (ix1 p) :=
  shapeCast_apply w shapeCasts_S16_S16x1 _ _ (by
    rw [Shape.rowMajor_val_two, Shape.rowMajor_val_one]
    show p.val = p.val * 1 + 0
    omega)

/-- [1] viewed as [1, 1]. -/
theorem one_of_vec {α : Type} (w : S1.Idx → α) :
    shapeCast S1x1 w shapeCasts_S1_S1x1 o11 = w (ix1 (0 : Fin 1)) :=
  shapeCast_a_1a_apply w shapeCasts_S1_S1x1 0 0

/-- [16, 64] viewed as [16, 64, 1]. -/
theorem keep_last {α : Type} (w : S16x64.Idx → α) (p : Fin 16) (n : Fin 64) :
    shapeCast S16x64x1 w shapeCasts_S16x64_S16x64x1 (ix3 p n (0 : Fin 1)) = w (ix2 p n) :=
  shapeCast_apply w shapeCasts_S16x64_S16x64x1 _ _ (by
    rw [Shape.rowMajor_val_three, Shape.rowMajor_val_two]
    show p.val * 64 + n.val = (p.val * 64 + n.val) * 1 + 0
    omega)

/-- [16, 64, 1] spread along the last axis to [16, 64, 384]. -/
theorem spread_last {α : Type} (w : S16x64x1.Idx → α) (p : Fin 16) (n : Fin 64) (e : Fin 384) :
    broadcastTo S16x64x384 w broadcasts_S16x64x1_S16x64x384 (ix3 p n e) = w (ix3 p n (0 : Fin 1)) :=
  broadcastTo_apply w broadcasts_S16x64x1_S16x64x384 _ _ (fun a => by
    match a with
    | ⟨0, _⟩ => show p.val = if (16 : Nat) = 1 then 0 else p.val; rw [if_neg (by decide)]
    | ⟨1, _⟩ => show n.val = if (64 : Nat) = 1 then 0 else n.val; rw [if_neg (by decide)]
    | ⟨2, _⟩ => show 0 = if (1 : Nat) = 1 then 0 else e.val; rw [if_pos rfl])

/-! ## A tile's two shares -/

/-- The sum over a block's rows of the length of the difference of the two image rows. -/
def tileLen (u v : FVec Ideal S16x64x768 .f32) : EReal :=
  ∑ p : Fin 16, ∑ n : Fin 64,
    Ideal.sqrt (∑ d : Fin 768, (u (ix3 p n d) - v (ix3 p n d)) * (u (ix3 p n d) - v (ix3 p n d)))

/-- The sum over a block's (batch, column) pairs of the squared column sum of the unit-length rows. -/
def tileSq (w : FVec Ideal S16x64x384 .f32) : EReal :=
  ∑ p : Fin 16, ∑ e : Fin 384,
    (∑ n : Fin 64, Ideal.div (w (ix3 p n e)) (Ideal.sqrt (∑ e' : Fin 384, w (ix3 p n e') * w (ix3 p n e'))))
      * (∑ n : Fin 64, Ideal.div (w (ix3 p n e)) (Ideal.sqrt (∑ e' : Fin 384, w (ix3 p n e') * w (ix3 p n e'))))

/-- The first accumulator's update is this composition of the named stages. -/
theorem lenForm (u v : FVec Ideal S16x64x768 .f32) (acc : FVec Ideal S1x1 .f32) :
    k0_pay5 (F := Ideal) u v acc
      = shapeCast S1x1 (addf acc (shapeCast S1x1 (sumBatch16 (shapeCast S16x1 (sumRows64 (sqrt (sumLast768
          (mulf (subf u v) (subf u v))))) shapeCasts_S16_S16x1)) shapeCasts_S1_S1x1)) shapeCasts_S1x1_S1x1 := rfl

/-- The first accumulator's new contents: its old contents plus the tile's share. -/
theorem lenStep (u v : FVec Ideal S16x64x768 .f32) (acc : FVec Ideal S1x1 .f32) :
    k0_pay5 (F := Ideal) u v acc = fun _ => acc o11 + tileLen u v := by
  funext j
  rw [eq_o11 j, lenForm]
  unfold tileLen
  simp only [shapeCast_self, addf_apply, one_of_vec, sumBatch16_apply, col_of_vec, sumRows64_apply, sqrt_apply,
    sumLast768_apply, mulf_apply, subf_apply]

/-- The second accumulator's update is this composition of the named stages. -/
theorem sqForm (w : FVec Ideal S16x64x384 .f32) (acc : FVec Ideal S1x1 .f32) :
    k0_pay1 (F := Ideal) (k0_pay6 (F := Ideal) w acc)
      = shapeCast S1x1 (addf acc (shapeCast S1x1 (sumBatch16 (shapeCast S16x1 (sumCols384
          (mulf
            (sumMid64 (divf w (broadcastTo S16x64x384 (sqrt (shapeCast S16x64x1 (sumLast384 (mulf w w))
              shapeCasts_S16x64_S16x64x1)) broadcasts_S16x64x1_S16x64x384)))
            (sumMid64 (divf w (broadcastTo S16x64x384 (sqrt (shapeCast S16x64x1 (sumLast384 (mulf w w))
              shapeCasts_S16x64_S16x64x1)) broadcasts_S16x64x1_S16x64x384)))))
          shapeCasts_S16_S16x1)) shapeCasts_S1_S1x1)) shapeCasts_S1x1_S1x1 := rfl

/-- The second accumulator's new contents: its old contents plus the tile's share. -/
theorem sqStep (w : FVec Ideal S16x64x384 .f32) (acc : FVec Ideal S1x1 .f32) :
    k0_pay1 (F := Ideal) (k0_pay6 (F := Ideal) w acc) = fun _ => acc o11 + tileSq w := by
  funext j
  rw [eq_o11 j, sqForm]
  unfold tileSq
  simp only [shapeCast_self, addf_apply, one_of_vec, sumBatch16_apply, col_of_vec, sumCols384_apply, mulf_apply,
    sumMid64_apply, divf_apply, spread_last, sqrt_apply, keep_last, sumLast384_apply]

/-- What the two resets store: zero. -/
theorem zero5 : (k0_pay3 (F := Ideal)) = fun _ => (0 : EReal) := by
  funext j
  unfold k0_pay3
  simp only [shapeCast_self, broadcast_apply]
  exact Ideal.ofBits_zero_f32

theorem zero6 : (k0_pay4 (F := Ideal)) = fun _ => (0 : EReal) := by
  funext j
  unfold k0_pay4
  simp only [shapeCast_self, broadcast_apply]
  exact Ideal.ofBits_zero_f32

/-! ## The output row -/

/-- Three [1, 1] vectors put side by side: position k of the row is the k-th vector's one entry. -/
theorem side0 {α : Type} (a b c : S1x1.Idx → α) :
    concatenate S1x3 1 [⟨S1x1, a⟩, ⟨S1x1, b⟩, ⟨S1x1, c⟩] concatenates_S1x1_S1x1_S1x1_S1x3_d1
      (ix2 (0 : Fin 1) (0 : Fin 3)) = a o11 :=
  concatenate_apply_piece (t := S1x3) (1 : Fin 2) [⟨S1x1, a⟩, ⟨S1x1, b⟩, ⟨S1x1, c⟩] concatenates_S1x1_S1x1_S1x1_S1x3_d1
    (ix2 (0 : Fin 1) (0 : Fin 3)) 0 (by show (0 : Nat) < 3; omega) S1x1 a rfl rfl 0 rfl o11
    (fun d hd => by match d with | ⟨0, _⟩ => rfl | ⟨1, _⟩ => exact absurd rfl hd) rfl

theorem side1 {α : Type} (a b c : S1x1.Idx → α) :
    concatenate S1x3 1 [⟨S1x1, a⟩, ⟨S1x1, b⟩, ⟨S1x1, c⟩] concatenates_S1x1_S1x1_S1x1_S1x3_d1
      (ix2 (0 : Fin 1) (1 : Fin 3)) = b o11 :=
  concatenate_apply_piece (t := S1x3) (1 : Fin 2) [⟨S1x1, a⟩, ⟨S1x1, b⟩, ⟨S1x1, c⟩] concatenates_S1x1_S1x1_S1x1_S1x3_d1
    (ix2 (0 : Fin 1) (1 : Fin 3)) 1 (by show (1 : Nat) < 3; omega) S1x1 b rfl rfl 1 rfl o11
    (fun d hd => by match d with | ⟨0, _⟩ => rfl | ⟨1, _⟩ => exact absurd rfl hd) rfl

theorem side2 {α : Type} (a b c : S1x1.Idx → α) :
    concatenate S1x3 1 [⟨S1x1, a⟩, ⟨S1x1, b⟩, ⟨S1x1, c⟩] concatenates_S1x1_S1x1_S1x1_S1x3_d1
      (ix2 (0 : Fin 1) (2 : Fin 3)) = c o11 :=
  concatenate_apply_piece (t := S1x3) (1 : Fin 2) [⟨S1x1, a⟩, ⟨S1x1, b⟩, ⟨S1x1, c⟩] concatenates_S1x1_S1x1_S1x1_S1x3_d1
    (ix2 (0 : Fin 1) (2 : Fin 3)) 2 (by show (2 : Nat) < 3; omega) S1x1 c rfl rfl 2 rfl o11
    (fun d hd => by match d with | ⟨0, _⟩ => rfl | ⟨1, _⟩ => exact absurd rfl hd) rfl

/-- The first accumulator over 16384. -/
def autoOf (s : EReal) : EReal := Ideal.div s (Ideal.ofBits .f32 0x46800000#32)

/-- Half of the second accumulator less 16384, over 532480. -/
def viOf (q : EReal) : EReal :=
  Ideal.div (Ideal.ofBits .f32 0x3F000000#32 * (q - Ideal.ofBits .f32 0x46800000#32)) (Ideal.ofBits .f32 0x49020000#32)

/-- The row of three the last point stores, from the two accumulators: the difference, the first term, the second. -/
theorem rowOfThree (a b : FVec Ideal S1x1 .f32) :
    k0_pay2 (F := Ideal) a b (ix2 (0 : Fin 1) (0 : Fin 3)) = autoOf (a o11) - viOf (b o11)
    ∧ k0_pay2 (F := Ideal) a b (ix2 (0 : Fin 1) (1 : Fin 3)) = autoOf (a o11)
    ∧ k0_pay2 (F := Ideal) a b (ix2 (0 : Fin 1) (2 : Fin 3)) = viOf (b o11) := by
  unfold k0_pay2 autoOf viOf
  refine ⟨?_, ?_, ?_⟩
  · rw [side0]; simp only [subf_apply, divf_apply, mulf_apply, broadcast_apply, Ideal.ofBits_def]
  · rw [side1]; simp only [subf_apply, divf_apply, mulf_apply, broadcast_apply, Ideal.ofBits_def]
  · rw [side2]; simp only [subf_apply, divf_apply, mulf_apply, broadcast_apply, Ideal.ofBits_def]

end Cert.LossKernel

end
-- ==== Proof.Pieces.lean ====
/-
  What each control case of the body leaves in the two accumulators and, in the last case, in the output row, as
  values: the stores the run found, read back.

  First point: both accumulators are stored zero, then each is stored zero's update by the tile. Middle points: each
  accumulator is stored its update from what the point before left. Last point: the same updates, and the output row
  is computed from the two accumulators as just stored. Every store covers its whole buffer, and every load reads a
  whole buffer, so a stored value read back is the value.
-/
import proofs.«170459_j23476291240772_1_alg».proof.Proof.Gen.KernelIdeal.Frame
import Idealize.ShloMosaic.Lib.Pipeline.Value
import Idealize.ShloMosaic.Lib.Tactic

noncomputable section

namespace Cert.LossKernel

open Idealize.ShloMosaic Idealize.ShloMosaic.TcCoe Idealize.ShloMosaic.Tactic Idealize.SL.Sem
open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## The first point -/

theorem firstLen (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S16x64x768 .f32) (x1 : Vec F S16x64x768 .f32) (x2 : Vec F S16x64x384 .f32) :
    sout0_A_0 c i arg1 harg1 arg2 harg2 arg3 harg3 arg4 harg4 arg5 harg5 arg6 harg6 hc0 hc1 x0 x1 x2 = k0_pay5 x0 x1 (k0_pay3 (F := F)) := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S1x1) hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

theorem firstSq (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S16x64x768 .f32) (x1 : Vec F S16x64x768 .f32) (x2 : Vec F S16x64x384 .f32) :
    sout0_A_1 c i arg1 harg1 arg2 harg2 arg3 harg3 arg4 harg4 arg5 harg5 arg6 harg6 hc0 hc1 x0 x1 x2 = k0_pay1 (k0_pay6 x2 (k0_pay4 (F := F))) := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S1x1) hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

/-! ## A middle point -/

theorem midLen (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S16x64x768 .f32) (x1 : Vec F S16x64x768 .f32) (x2 : Vec F S16x64x384 .f32) (xs0 xs1 : Vec F S1x1 .f32) :
    sout0_B_0 c i arg1 harg1 arg2 harg2 arg3 harg3 arg4 harg4 arg5 harg5 arg6 harg6 hc0 hc1 x0 x1 x2 xs0 xs1 = k0_pay5 x0 x1 xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  unfold kernelRun0_B
  dsimp only
  sl_unfold_words
  rw [View.canon_unit_zero hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

theorem midSq (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S16x64x768 .f32) (x1 : Vec F S16x64x768 .f32) (x2 : Vec F S16x64x384 .f32) (xs0 xs1 : Vec F S1x1 .f32) :
    sout0_B_1 c i arg1 harg1 arg2 harg2 arg3 harg3 arg4 harg4 arg5 harg5 arg6 harg6 hc0 hc1 x0 x1 x2 xs0 xs1 = k0_pay1 (k0_pay6 x2 xs1) := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  sl_unfold_words
  rw [View.canon_unit_zero hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

/-! ## The last point -/

theorem lastLen (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S16x64x768 .f32) (x1 : Vec F S16x64x768 .f32) (x2 : Vec F S16x64x384 .f32) (xs0 xs1 : Vec F S1x1 .f32) :
    sout0_C_0 c i arg1 harg1 arg2 harg2 arg3 harg3 arg4 harg4 arg5 harg5 arg6 harg6 hc0 hc1 x0 x1 x2 xs0 xs1 = k0_pay5 x0 x1 xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  unfold kernelRun0_C
  dsimp only
  sl_unfold_words
  rw [View.canon_unit_zero hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

theorem lastSq (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S16x64x768 .f32) (x1 : Vec F S16x64x768 .f32) (x2 : Vec F S16x64x384 .f32) (xs0 xs1 : Vec F S1x1 .f32) :
    sout0_C_1 c i arg1 harg1 arg2 harg2 arg3 harg3 arg4 harg4 arg5 harg5 arg6 harg6 hc0 hc1 x0 x1 x2 xs0 xs1 = k0_pay1 (k0_pay6 x2 xs1) := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

/-- The output row: computed from the two accumulators as the last point has just stored them. -/
theorem lastRow (c : Dev nD) (i : grid0.Coords) (arg1 : Memref sig .tc .vmem S16x64x768 .f32) (harg1 : arg1.IsWhole) (arg2 : Memref sig .tc .vmem S16x64x768 .f32) (harg2 : arg2.IsWhole) (arg3 : Memref sig .tc .vmem S16x64x384 .f32) (harg3 : arg3.IsWhole) (arg4 : Memref sig .tc .vmem S1x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S16x64x768 .f32) (x1 : Vec F S16x64x768 .f32) (x2 : Vec F S16x64x384 .f32) (xs0 xs1 : Vec F S1x1 .f32) :
    out0_C_3 c i arg1 harg1 arg2 harg2 arg3 harg3 arg4 harg4 arg5 harg5 arg6 harg6 hc0 hc1 x0 x1 x2 xs0 xs1
      = k0_pay2 (k0_pay5 x0 x1 xs0) (k0_pay1 (k0_pay6 x2 xs1)) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  sl_unfold_words
  rw [View.canon_unit_zero hz]
  simp only [View.readAt_eq_ld, harg1.read_unread, harg2.read_unread, harg3.read_unread, harg5.read_unread, harg6.read_unread,
    View.ld_unit_zero (S := S16x64x768) hz3, View.ld_unit_zero (S := S16x64x384) hz3, View.ld_unit_zero (S := S1x1) hz,
    View.readCov_unit_zero (S := S1x1) _ hz]

end Cert.LossKernel

end
-- ==== Proof.Accum.lean ====
/-
  The kernel's run, read as values at the ideal instance.

  Point t of the grid sees block t of each array: rows 16 t … 16 t + 15 of the batch axis, whole on the other two
  axes. After point n the two accumulators hold the sums of the first n + 1 tiles' shares, built up from zero (by
  induction on the point: the first point stores zero and adds its share, every later point adds its share to what
  the point before left). The last point also stores the row of three results, computed from the accumulators it has
  just stored; that row is the one block the pipeline writes back, and it is the whole [1, 3] result array. The three
  host slices after the call pick its three entries.
-/
import proofs.«170459_j23476291240772_1_alg».proof.Proof.Gen.KernelIdeal.Frame
import proofs.«170459_j23476291240772_1_alg».proof.Proof.LossSpec
import proofs.«170459_j23476291240772_1_alg».proof.Proof.Payload
import proofs.«170459_j23476291240772_1_alg».proof.Proof.Pieces
import Idealize.ShloMosaic.Lib.Pipeline.Value
import Idealize.ShloMosaic.Lib.StableHlo.Run
import Idealize.ShloMosaic.Lib.Tactic

noncomputable section

open scoped BigOperators

namespace Cert.LossKernel

open Idealize.ShloMosaic Idealize.ShloMosaic.TcCoe Idealize.SL.Sem Idealize.ShloMosaic.ValueIdx
open Idealize.ShloMosaic.Pipeline (Dat)
open Cert.KernelIdeal Cert.KernelIdeal.Gen Cert.LossSpec

variable (m : (ℓ : Loc nD τ sig) → Buf (Elt Ideal) ℓ) (ρ : Dev nD → PrngReg)

/-! ## The arrays and their blocks -/

/-- The three argument arrays as the region finds them. -/
abbrev imgA (c : Dev nD) : FVec Ideal S256x64x768 .f32 := V m c main_arg0
abbrev imgB (c : Dev nD) : FVec Ideal S256x64x768 .f32 := V m c main_arg1
abbrev enc (c : Dev nD) : FVec Ideal S256x64x384 .f32 := V m c main_arg2

/-- Their blocks at point t. -/
abbrev blkA (c : Dev nD) (t : Fin cfg0.N) : FVec Ideal S16x64x768 .f32 := iblk m c 0 t
abbrev blkB (c : Dev nD) (t : Fin cfg0.N) : FVec Ideal S16x64x768 .f32 := iblk m c 1 t
abbrev blkE (c : Dev nD) (t : Fin cfg0.N) : FVec Ideal S16x64x384 .f32 := iblk m c 2 t

/-- A grid point as a tile number. -/
abbrev tileOf (t : Fin cfg0.N) : Fin 16 := ⟨t.val, lt_of_lt_of_eq t.isLt N_0⟩

theorem idxA : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idxB : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idxE : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- Place p of block t is batch row 16 t + p of the array. -/
theorem blkA_apply (c : Dev nD) (t : Fin cfg0.N) (p : Fin 16) (n : Fin 64) (d : Fin 768) :
    blkA m c t (ix3 p n d) = imgA m c (ix3 (row (tileOf t) p) n d) := by
  obtain ⟨h0, h1, h2⟩ := idxA t
  show iblk m c 0 t (ix3 p n d) = V m c main_arg0 _
  unfold iblk
  rw [View.read_apply]
  show V m c main_arg0 _ = V m c main_arg0 _
  congr 1
  funext a
  apply Fin.ext
  match a with
  | ⟨0, _⟩ => show win0_0.index t 0 * 16 + 1 * p.val = 16 * t.val + p.val; rw [h0]; omega
  | ⟨1, _⟩ => show win0_0.index t 1 * 64 + 1 * n.val = n.val; rw [h1]; omega
  | ⟨2, _⟩ => show win0_0.index t 2 * 768 + 1 * d.val = d.val; rw [h2]; omega

theorem blkB_apply (c : Dev nD) (t : Fin cfg0.N) (p : Fin 16) (n : Fin 64) (d : Fin 768) :
    blkB m c t (ix3 p n d) = imgB m c (ix3 (row (tileOf t) p) n d) := by
  obtain ⟨h0, h1, h2⟩ := idxB t
  show iblk m c 1 t (ix3 p n d) = V m c main_arg1 _
  unfold iblk
  rw [View.read_apply]
  show V m c main_arg1 _ = V m c main_arg1 _
  congr 1
  funext a
  apply Fin.ext
  match a with
  | ⟨0, _⟩ => show win0_1.index t 0 * 16 + 1 * p.val = 16 * t.val + p.val; rw [h0]; omega
  | ⟨1, _⟩ => show win0_1.index t 1 * 64 + 1 * n.val = n.val; rw [h1]; omega
  | ⟨2, _⟩ => show win0_1.index t 2 * 768 + 1 * d.val = d.val; rw [h2]; omega

theorem blkE_apply (c : Dev nD) (t : Fin cfg0.N) (p : Fin 16) (n : Fin 64) (e : Fin 384) :
    blkE m c t (ix3 p n e) = enc m c (ix3 (row (tileOf t) p) n e) := by
  obtain ⟨h0, h1, h2⟩ := idxE t
  show iblk m c 2 t (ix3 p n e) = V m c main_arg2 _
  unfold iblk
  rw [View.read_apply]
  show V m c main_arg2 _ = V m c main_arg2 _
  congr 1
  funext a
  apply Fin.ext
  match a with
  | ⟨0, _⟩ => show win0_2.index t 0 * 16 + 1 * p.val = 16 * t.val + p.val; rw [h0]; omega
  | ⟨1, _⟩ => show win0_2.index t 1 * 64 + 1 * n.val = n.val; rw [h1]; omega
  | ⟨2, _⟩ => show win0_2.index t 2 * 384 + 1 * e.val = e.val; rw [h2]; omega

/-- So a block's two shares are the tile's shares of the totals. -/
theorem tileLen_blk (c : Dev nD) (t : Fin cfg0.N) :
    tileLen (blkA m c t) (blkB m c t) = lenTile (imgA m c) (imgB m c) (tileOf t) := by
  unfold tileLen lenTile rowLen
  simp only [blkA_apply, blkB_apply]

theorem tileSq_blk (c : Dev nD) (t : Fin cfg0.N) :
    tileSq (blkE m c t) = sqTile (enc m c) (tileOf t) := by
  unfold tileSq sqTile colSum rowScale
  simp only [blkE_apply]

/-! ## What a point leaves in the accumulators, by case -/

theorem first_point (c : Dev nD) (t : Fin cfg0.N) (h0 : t.val % 16 = 0) (h1 : ¬t.val % 16 = 15) :
    (outsAt0 m c t.val t.isLt).2.1 = k0_pay5 (F := Ideal) (blkA m c t) (blkB m c t) (k0_pay3 (F := Ideal))
    ∧ (outsAt0 m c t.val t.isLt).2.2 = k0_pay1 (F := Ideal) (k0_pay6 (F := Ideal) (blkE m c t) (k0_pay4 (F := Ideal))) := by
  rw [outsAt0_A m c t h0 h1]
  dsimp only
  exact ⟨firstLen (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
    firstSq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)⟩

theorem later_point (c : Dev nD) (t : Fin cfg0.N) (h0 : ¬t.val % 16 = 0) :
    (outsAt0 m c t.val t.isLt).2.1 = k0_pay5 (F := Ideal) (blkA m c t) (blkB m c t) (outsAt0 m c (t.val - 1) (Nat.lt_of_le_of_lt (Nat.sub_le _ _) t.isLt)).2.1
    ∧ (outsAt0 m c t.val t.isLt).2.2 = k0_pay1 (F := Ideal) (k0_pay6 (F := Ideal) (blkE m c t) (outsAt0 m c (t.val - 1) (Nat.lt_of_le_of_lt (Nat.sub_le _ _) t.isLt)).2.2) := by
  by_cases h1 : t.val % 16 = 15
  · rw [outsAt0_C m c t h0 h1]
    dsimp only
    exact ⟨lastLen (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      lastSq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨midLen (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
      midSq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2⟩

theorem last_row (c : Dev nD) (t : Fin cfg0.N) (h0 : ¬t.val % 16 = 0) (h1 : t.val % 16 = 15) :
    (outsAt0 m c t.val t.isLt).1
      = k0_pay2 (F := Ideal) (k0_pay5 (F := Ideal) (blkA m c t) (blkB m c t) (outsAt0 m c (t.val - 1) (Nat.lt_of_le_of_lt (Nat.sub_le _ _) t.isLt)).2.1) (k0_pay1 (F := Ideal) (k0_pay6 (F := Ideal) (blkE m c t) (outsAt0 m c (t.val - 1) (Nat.lt_of_le_of_lt (Nat.sub_le _ _) t.isLt)).2.2)) := by
  rw [outsAt0_C m c t h0 h1]
  dsimp only
  exact lastRow (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-! ## The accumulators after point n are the running sums -/

/-- Tile n's share of the first total (zero past the grid). -/
def lenG (c : Dev nD) : ℕ → EReal := fun n =>
  if h : n < cfg0.N then tileLen (blkA m c ⟨n, h⟩) (blkB m c ⟨n, h⟩) else 0

/-- Tile n's share of the second total (zero past the grid). -/
def sqG (c : Dev nD) : ℕ → EReal := fun n =>
  if h : n < cfg0.N then tileSq (blkE m c ⟨n, h⟩) else 0

theorem acc_eq (c : Dev nD) : ∀ (n : ℕ) (h : n < cfg0.N),
    (outsAt0 m c n h).2.1 = (fun _ => upTo (lenG m c) n) ∧ (outsAt0 m c n h).2.2 = (fun _ => upTo (sqG m c) n)
  | 0, h => by
    obtain ⟨e1, e2⟩ := first_point m c ⟨0, h⟩ rfl (by show ¬(0 : ℕ) % 16 = 15; decide)
    refine ⟨e1.trans ?_, e2.trans ?_⟩
    · rw [lenStep, zero5]
      funext _
      show (0 : EReal) + tileLen _ _ = 0 + lenG m c 0
      unfold lenG; rw [dif_pos h]
    · rw [sqStep, zero6]
      funext _
      show (0 : EReal) + tileSq _ = 0 + sqG m c 0
      unfold sqG; rw [dif_pos h]
  | n + 1, h => by
    have ih := acc_eq c n (Nat.lt_of_succ_lt h)
    have hN : cfg0.N = 16 := N_0
    obtain ⟨e1, e2⟩ := later_point m c ⟨n + 1, h⟩ (by dsimp only; omega)
    refine ⟨e1.trans ?_, e2.trans ?_⟩
    · rw [lenStep]
      funext _
      show (outsAt0 m c n _).2.1 o11 + tileLen _ _ = upTo (lenG m c) n + lenG m c (n + 1)
      rw [ih.1]
      unfold lenG; rw [dif_pos h]
    · rw [sqStep]
      funext _
      show (outsAt0 m c n _).2.2 o11 + tileSq _ = upTo (sqG m c) n + sqG m c (n + 1)
      rw [ih.2]
      unfold sqG; rw [dif_pos h]

/-- After the last point they are the two totals. -/
theorem lenG_tile (c : Dev nD) (t : Fin 16) : lenG m c t.val = lenTile (imgA m c) (imgB m c) t := by
  have h : t.val < cfg0.N := lt_of_lt_of_eq t.isLt N_0.symm
  unfold lenG; rw [dif_pos h]
  exact tileLen_blk m c ⟨t.val, h⟩

theorem sqG_tile (c : Dev nD) (t : Fin 16) : sqG m c t.val = sqTile (enc m c) t := by
  have h : t.val < cfg0.N := lt_of_lt_of_eq t.isLt N_0.symm
  unfold sqG; rw [dif_pos h]
  exact tileSq_blk m c ⟨t.val, h⟩

theorem len_total (c : Dev nD) : upTo (lenG m c) 15 = lenTotal (imgA m c) (imgB m c) :=
  (upTo_fifteen _ _ (lenG_tile m c)).trans (lenTotal_tiles _ _).symm

theorem sq_total (c : Dev nD) : upTo (sqG m c) 15 = sqTotal (enc m c) :=
  (upTo_fifteen _ _ (sqG_tile m c)).trans (sqTotal_tiles _).symm

/-! ## The row the last point stores -/

theorem h15 : 15 < cfg0.N := by rw [show cfg0.N = 16 from N_0]; decide

/-- The output row after the last point. -/
abbrev result (c : Dev nD) : FVec Ideal S1x3 .f32 := (outsAt0 m c 15 h15).1

theorem result_apply (c : Dev nD) :
    result m c (ix2 (0 : Fin 1) (0 : Fin 3)) = loss (imgA m c) (imgB m c) (enc m c)
    ∧ result m c (ix2 (0 : Fin 1) (1 : Fin 3)) = lossAuto (imgA m c) (imgB m c)
    ∧ result m c (ix2 (0 : Fin 1) (2 : Fin 3)) = lossVi (enc m c) := by
  have hr := last_row m c ⟨15, h15⟩ (by show ¬(15 : ℕ) % 16 = 0; decide) rfl
  obtain ⟨e1, e2⟩ := later_point m c ⟨15, h15⟩ (by show ¬(15 : ℕ) % 16 = 0; decide)
  have hrow : result m c = k0_pay2 (F := Ideal) (fun _ => lenTotal (imgA m c) (imgB m c)) (fun _ => sqTotal (enc m c)) := by
    show (outsAt0 m c 15 h15).1 = _
    rw [hr, ← e1, ← e2]
    show k0_pay2 (F := Ideal) (outsAt0 m c 15 h15).2.1 (outsAt0 m c 15 h15).2.2 = _
    rw [(acc_eq m c 15 h15).1, (acc_eq m c 15 h15).2, len_total, sq_total]
  obtain ⟨r0, r1, r2⟩ := rowOfThree (fun _ => lenTotal (imgA m c) (imgB m c)) (fun _ => sqTotal (enc m c))
  rw [hrow]
  exact ⟨r0, r1, r2⟩

end Cert.LossKernel

end
-- ==== Proof.KernelRun.lean ====
/-
  The kernel's whole run at the ideal instance, with its three results named.

  The output window's block never moves and is written back once, after the last point; that block is the whole
  [1, 3] array, so the array ends holding the row the last point stored. The program then takes the row's three
  entries, each as a [1, 1] slice reshaped to a scalar.
-/
import proofs.«170459_j23476291240772_1_alg».proof.Proof.Accum

noncomputable section

open scoped BigOperators

namespace Cert.LossKernel

open Idealize.ShloMosaic Idealize.ShloMosaic.TcCoe Idealize.SL.Sem Idealize.ShloMosaic.ValueIdx
open Idealize.ShloMosaic.Pipeline (Dat)
open Cert.KernelIdeal Cert.KernelIdeal.Gen Cert.LossSpec

variable (m : (ℓ : Loc nD τ sig) → Buf (Elt Ideal) ℓ) (ρ : Dev nD → PrngReg)

/-! ## The result array after the region -/

/-- The one write-back, after the last point, writes the row that point stored. -/
theorem flushed_row (c : Dev nD) (t : Fin cfg0.N) (hf : (cfg0.win 3).flush t = true) :
    (dats m 0 c).flushed 3 t = ((cfg0.win 3).blk t).view.read (Elt Ideal) (result m c) := by
  have hN : cfg0.N = 16 := N_0
  have h : t.val = 15 := by have := (flush0_3 t).mp hf; have := t.isLt; omega
  obtain rfl : t = ⟨15, h15⟩ := Fin.ext h
  show (cfg0.win 3).cut (grid0.coords ⟨15, h15⟩) ((dats m 0 c).after 3 ⟨15, h15⟩) = _
  rw [after0_3]
  have hz' : (fun a => win0_3.index ⟨15, h15⟩ a * main_v0.ty.shape.size a) = fun _ => 0 :=
    funext fun a => by fin_cases a <;> decide
  exact (Memref.read_access_unit_zero (Elt Ideal) main_v0 hz' (fun a => by rw [congrFun hz' a]; simp) (result m c)).symm

/-- That block is the whole array, so the array ends holding the row. -/
theorem final_row (c : Dev nD) : (dats m 0 c).arrAt 3 cfg0.N = result m c :=
  (dats m 0 c).arrAt_eq_of_cover 3 (result m c) (flushed_row m c) fun i =>
    ⟨⟨15, h15⟩, (flush0_3 _).mpr rfl, by
      show i ∈ ((View.whole main_v0).slice (win0_3.rect ⟨15, h15⟩)).set
      rw [View.set_slice_whole, Rect.mem_set_unit]
      intro a
      match a with
      | ⟨0, _⟩ =>
        have hi : (i 0 : Nat) < 1 := (i 0).isLt
        show win0_3.index ⟨15, h15⟩ 0 * win0_3.size 0 ≤ (i 0 : Nat)
          ∧ (i 0 : Nat) < win0_3.index ⟨15, h15⟩ 0 * win0_3.size 0 + win0_3.xsize (grid0.coords ⟨15, h15⟩) 0
        rw [show win0_3.index ⟨15, h15⟩ 0 * win0_3.size 0 = 0 from by decide +kernel,
          show win0_3.xsize (grid0.coords ⟨15, h15⟩) 0 = 1 from by decide +kernel]
        omega
      | ⟨1, _⟩ =>
        have hi : (i 1 : Nat) < 3 := (i 1).isLt
        show win0_3.index ⟨15, h15⟩ 1 * win0_3.size 1 ≤ (i 1 : Nat)
          ∧ (i 1 : Nat) < win0_3.index ⟨15, h15⟩ 1 * win0_3.size 1 + win0_3.xsize (grid0.coords ⟨15, h15⟩) 1
        rw [show win0_3.index ⟨15, h15⟩ 1 * win0_3.size 1 = 0 from by decide +kernel,
          show win0_3.xsize (grid0.coords ⟨15, h15⟩) 1 = 3 from by decide +kernel]
        omega⟩

/-- The result array as the host operations after the region find it. -/
theorem arr_v0 (c : Dev nD) :
    Pipeline.withArrays (cfgs 0).spec c (V0 m c) (fun w => (dats m 0 c).arrAt w (cfgs 0).N) (Proc.devRef .tc main_v0)
      = result m c :=
  (Pipeline.withArrays_arr spec0 launch0.win.arr_inj c _ _ 3).trans (final_row m c)

/-! ## The three entries the program returns -/

theorem pick0 (G : FVec Ideal S1x3 .f32) (i : S_.Idx) :
    shapeCast S_ (extractStridedSlice S1x1 ![0, 0] G slices_S1x3_S1x1_0_0) shapeCasts_S1x1_S_ i
      = G (ix2 (0 : Fin 1) (0 : Fin 3)) :=
  (shapeCast_apply _ shapeCasts_S1x1_S_ i o11 (by
      have h2 : (S_.rowMajor i).val = 0 := Shape.rowMajorPi_zero _ i
      rw [Shape.rowMajor_val_two, h2]
      rfl)).trans
    (extractStridedSlice_apply ![0, 0] G slices_S1x3_S1x1_0_0 o11 _ (fun a => by
      match a with | ⟨0, _⟩ => rfl | ⟨1, _⟩ => rfl))

theorem pick1 (G : FVec Ideal S1x3 .f32) (i : S_.Idx) :
    shapeCast S_ (extractStridedSlice S1x1 ![0, 1] G slices_S1x3_S1x1_0_1) shapeCasts_S1x1_S_ i
      = G (ix2 (0 : Fin 1) (1 : Fin 3)) :=
  (shapeCast_apply _ shapeCasts_S1x1_S_ i o11 (by
      have h2 : (S_.rowMajor i).val = 0 := Shape.rowMajorPi_zero _ i
      rw [Shape.rowMajor_val_two, h2]
      rfl)).trans
    (extractStridedSlice_apply ![0, 1] G slices_S1x3_S1x1_0_1 o11 _ (fun a => by
      match a with | ⟨0, _⟩ => rfl | ⟨1, _⟩ => rfl))

theorem pick2 (G : FVec Ideal S1x3 .f32) (i : S_.Idx) :
    shapeCast S_ (extractStridedSlice S1x1 ![0, 2] G slices_S1x3_S1x1_0_2) shapeCasts_S1x1_S_ i
      = G (ix2 (0 : Fin 1) (2 : Fin 3)) :=
  (shapeCast_apply _ shapeCasts_S1x1_S_ i o11 (by
      have h2 : (S_.rowMajor i).val = 0 := Shape.rowMajorPi_zero _ i
      rw [Shape.rowMajor_val_two, h2]
      rfl)).trans
    (extractStridedSlice_apply ![0, 2] G slices_S1x3_S1x1_0_2 o11 _ (fun a => by
      match a with | ⟨0, _⟩ => rfl | ⟨1, _⟩ => rfl))

theorem tail_v2 (c : Dev nD) :
    Pipeline.afterTail₀ cfgs (dats m) 0 (V0 m) [hostOps1] c main_v2 = fun _ => loss (imgA m c) (imgB m c) (enc m c) := by
  unfold Pipeline.afterTail₀
  show StableHlo.after hostOps1 _ (Proc.devRef .tc main_v2) = _
  after_results
  funext i
  show shapeCast S_ (extractStridedSlice S1x1 ![0, 0]
      (Pipeline.withArrays (cfgs 0).spec c (V0 m c) (fun w => (dats m 0 c).arrAt w (cfgs 0).N) (Proc.devRef .tc main_v0))
      slices_S1x3_S1x1_0_0) shapeCasts_S1x1_S_ i = _
  rw [arr_v0, pick0]
  exact (result_apply m c).1

theorem tail_v4 (c : Dev nD) :
    Pipeline.afterTail₀ cfgs (dats m) 0 (V0 m) [hostOps1] c main_v4 = fun _ => lossAuto (imgA m c) (imgB m c) := by
  unfold Pipeline.afterTail₀
  show StableHlo.after hostOps1 _ (Proc.devRef .tc main_v4) = _
  after_results
  funext i
  show shapeCast S_ (extractStridedSlice S1x1 ![0, 1]
      (Pipeline.withArrays (cfgs 0).spec c (V0 m c) (fun w => (dats m 0 c).arrAt w (cfgs 0).N) (Proc.devRef .tc main_v0))
      slices_S1x3_S1x1_0_1) shapeCasts_S1x1_S_ i = _
  rw [arr_v0, pick1]
  exact (result_apply m c).2.1

theorem tail_v6 (c : Dev nD) :
    Pipeline.afterTail₀ cfgs (dats m) 0 (V0 m) [hostOps1] c main_v6 = fun _ => lossVi (enc m c) := by
  unfold Pipeline.afterTail₀
  show StableHlo.after hostOps1 _ (Proc.devRef .tc main_v6) = _
  after_results
  funext i
  show shapeCast S_ (extractStridedSlice S1x1 ![0, 2]
      (Pipeline.withArrays (cfgs 0).spec c (V0 m c) (fun w => (dats m 0 c).arrAt w (cfgs 0).N) (Proc.devRef .tc main_v0))
      slices_S1x3_S1x1_0_2) shapeCasts_S1x1_S_ i = _
  rw [arr_v0, pick2]
  exact (result_apply m c).2.2

/-! ## The run -/

/-- Every weakly fair execution of the kernel's program ends with the three results at the three losses of the
    argument arrays, the arguments unchanged. -/
theorem run : θ_run defs (onTc (τ := τ) (main (F := Ideal))) ⟨m, fun _ => 0, ρ⟩ (fun r => ∀ c : Dev nD,
      r.2.mem ((c.tc : Thread nD τ).loc main_v2) = (fun _ => loss (imgA m c) (imgB m c) (enc m c))
      ∧ r.2.mem ((c.tc : Thread nD τ).loc main_v4) = (fun _ => lossAuto (imgA m c) (imgB m c))
      ∧ r.2.mem ((c.tc : Thread nD τ).loc main_v6) = (fun _ => lossVi (enc m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 rfl (fun w => by fin_cases w <;> decide))).trans (tail_v2 m c),
     ((h c).2 main_v4 (Pipeline.mem_restRefs_of main_v4 rfl (fun w => by fin_cases w <;> decide))).trans (tail_v4 m c),
     ((h c).2 main_v6 (Pipeline.mem_restRefs_of main_v6 rfl (fun w => by fin_cases w <;> decide))).trans (tail_v6 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.LossKernel

end
-- ==== Proof.lean ====
/-
  Two losses of three arrays, computed tile by tile, against the same two losses computed whole.

  Inputs: images x, y of shape [256, 64, 768] and encodings z of shape [256, 64, 384]. Results, in order:
    loss = lossAuto - lossVi,
    lossAuto = (sum over the 256 x 64 rows (b, n) of the length of x[b, n, :] - y[b, n, :]) / 16384,
    lossVi = (1/2 * ((sum over the 256 x 384 pairs (b, e) of (sum over n of z[b, n, e] / |z[b, n, :]|)^2) - 16384)) / 532480.

  The reference computes each sum whole. The kernel walks the batch axis in 16 tiles of 16: at each grid point it
  adds the tile's share of each sum to an accumulator that the first point starts from zero, and at the last point
  it divides, subtracts and stores the row (loss, lossAuto, lossVi), which the program then takes apart. Over the
  extended reals both programs use the same square root, the same quotient and the same three constants (the words
  of 16384, 1/2 and 532480), entry by entry; what differs is only how the two finite sums are grouped, and addition
  there is commutative and associative. So the results are equal for every input, and the precondition is not
  used by the value claim.

  The three frames are the generated ones (the reference's is its generated run with the results dropped); the
  ideal pass rewrote nothing, so the preservation claim is trivial.
-/
import proofs.«170459_j23476291240772_1_alg».proof.Defs
import proofs.«170459_j23476291240772_1_alg».proof.Proof.Gen.Kernel
import proofs.«170459_j23476291240772_1_alg».proof.Proof.Gen.Kernel.Skeleton
import proofs.«170459_j23476291240772_1_alg».proof.Proof.Gen.Kernel.Launch
import proofs.«170459_j23476291240772_1_alg».proof.Proof.Gen.Kernel.Points
import proofs.«170459_j23476291240772_1_alg».proof.Proof.Gen.Kernel.Frame
import proofs.«170459_j23476291240772_1_alg».proof.Proof.Gen.KernelIdeal
import proofs.«170459_j23476291240772_1_alg».proof.Proof.Gen.KernelIdeal.Skeleton
import proofs.«170459_j23476291240772_1_alg».proof.Proof.Gen.KernelIdeal.Launch
import proofs.«170459_j23476291240772_1_alg».proof.Proof.Gen.KernelIdeal.Points
import proofs.«170459_j23476291240772_1_alg».proof.Proof.Gen.KernelIdeal.Frame
import proofs.«170459_j23476291240772_1_alg».proof.Proof.Gen.ReferenceIdeal
import proofs.«170459_j23476291240772_1_alg».proof.Proof.Gen.ReferenceIdeal.Run
import proofs.«170459_j23476291240772_1_alg».proof.Proof.Gen.ReferenceIdeal.Read
import proofs.«170459_j23476291240772_1_alg».proof.Proof.Gen.Pre_finite_inputs
import proofs.«170459_j23476291240772_1_alg».proof.Proof.RefSide
import proofs.«170459_j23476291240772_1_alg».proof.Proof.KernelRun
import Idealize.ShloMosaic.Adequacy
import Idealize.ShloMosaic.Init

noncomputable section

namespace Cert.Proof

open Idealize.ShloMosaic Idealize.SL.Sem Cert.LossSpec

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with (loss, lossAuto, lossVi) of the argument arrays. -/
theorem algebraic : Cert.algebraic_KernelIdeal_ReferenceIdeal := by
  intro m ρ m' ρ' _ hagree
  refine ⟨fun c _ => loss (Cert.LossKernel.imgA m c) (Cert.LossKernel.imgB m c) (Cert.LossKernel.enc m c),
    fun c _ => lossAuto (Cert.LossKernel.imgA m c) (Cert.LossKernel.imgB m c),
    fun c _ => lossVi (Cert.LossKernel.enc m c), Cert.LossKernel.run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ((Cert.ReferenceIdeal.Read.val_main_v15_eq _ _ _).trans (funext fun i => ?_))
    rw [Cert.LossRef.loss_eq, (hagree c).1, (hagree c).2.1, (hagree c).2.2]
    rfl
  · refine (h c).2.1.trans ((Cert.ReferenceIdeal.Read.val_main_v13_eq _ _).trans (funext fun i => ?_))
    rw [Cert.LossRef.lossAuto_eq, (hagree c).1, (hagree c).2.1]
    rfl
  · refine (h c).2.2.1.trans ((Cert.ReferenceIdeal.Read.val_main_v14_eq _).trans (funext fun i => ?_))
    rw [Cert.LossRef.lossVi_eq, (hagree c).2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
